-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x32 : Shape := ⟨4, ![8, 512, 512, 32]⟩
abbrev S_ : Shape := ⟨0, ![]⟩

class Facts : Prop where
  bcast_S_S8x512x512x32 : S_.BroadcastsInDim S8x512x512x32 (![] : Fin 0 → Fin S8x512x512x32.rank)
  reducesTo_S8x512x512x32_S_d0_1_2_3 : S8x512x512x32.ReducesTo [0, 1, 2, 3] S_
  h_S_ : 0 < S_.numel

variable [Facts]

def fn {F : FTy → Type} [FloatOps F] (main_arg0 : FVec F S8x512x512x32 .f32) : IVec S_ 1 :=
  let main_v0 : FVec F S8x512x512x32 .f32 := Host.absf main_arg0
  let main_cst : FVec F S_ .f32 := constant S_ .f32 0x7F800000#32
  let main_v1 : FVec F S8x512x512x32 .f32 := broadcastInDim S8x512x512x32 ![] bcast_S_S8x512x512x32 main_cst
  let main_v2 : IVec S8x512x512x32 1 := cmpf .olt main_v0 main_v1
  let main_c : IVec S_ 1 := constantI S_ 1 1#1
  let main_v3 : IVec S_ 1 := (fun x v => Host.reduce IntOp.andi x v reducesTo_S8x512x512x32_S_d0_1_2_3 h_S_) main_v2 main_c
  main_v3
-- ==== Kernel.lean ====
abbrev S8x512x512x32 : Shape := ⟨4, ![8, 512, 512, 32]⟩
abbrev S2x32x512x32 : Shape := ⟨4, ![2, 32, 512, 32]⟩
abbrev S2x16x512x32 : Shape := ⟨4, ![2, 16, 512, 32]⟩
abbrev S2x1x512x32 : Shape := ⟨4, ![2, 1, 512, 32]⟩
abbrev S2x32x16x32 : Shape := ⟨4, ![2, 32, 16, 32]⟩
abbrev S2x32x480x32 : Shape := ⟨4, ![2, 32, 480, 32]⟩
abbrev S2x32x1x32 : Shape := ⟨4, ![2, 32, 1, 32]⟩

abbrev nBuf : Space → Nat
  | .hbm => 2
  | .vmem => 4
  | .smem => 0
  | _ => 0

abbrev bufTy : (tb : Table) → Fin (tcTables nBuf tb) → BufTy
  | .hbm, ⟨0, _⟩ => ⟨S8x512x512x32, .f32⟩
  | .hbm, ⟨1, _⟩ => ⟨S8x512x512x32, .f32⟩
  | .local _ .vmem, ⟨0, _⟩ => ⟨S2x32x512x32, .f32⟩
  | .local _ .vmem, ⟨1, _⟩ => ⟨S2x32x512x32, .f32⟩
  | .local _ .vmem, ⟨2, _⟩ => ⟨S2x32x512x32, .f32⟩
  | .local _ .vmem, ⟨3, _⟩ => ⟨S2x32x512x32, .f32⟩
  | _, _ => ⟨S8x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x32x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S2x32x512x32_S2x32x512x32_0_0_0_0 : ∀ a, (![0, 0, 0, 0] : Fin 4 → Nat) a + S2x32x512x32.size a ≤ S2x32x512x32.size a
  h_S2x32x512x32 : 0 < S2x32x512x32.numel
  slices_S2x32x512x32_o0_0_0_0_S2x16x512x32 : S2x32x512x32.Slices ![0, 0, 0, 0] S2x16x512x32
  slices_S2x32x512x32_o0_16_0_0_S2x16x512x32 : S2x32x512x32.Slices ![0, 16, 0, 0] S2x16x512x32
  slices_S2x16x512x32_o0_0_0_0_S2x1x512x32 : S2x16x512x32.Slices ![0, 0, 0, 0] S2x1x512x32
  slices_S2x16x512x32_o0_1_0_0_S2x1x512x32 : S2x16x512x32.Slices ![0, 1, 0, 0] S2x1x512x32
  slices_S2x16x512x32_o0_2_0_0_S2x1x512x32 : S2x16x512x32.Slices ![0, 2, 0, 0] S2x1x512x32
  slices_S2x16x512x32_o0_3_0_0_S2x1x512x32 : S2x16x512x32.Slices ![0, 3, 0, 0] S2x1x512x32
  slices_S2x16x512x32_o0_4_0_0_S2x1x512x32 : S2x16x512x32.Slices ![0, 4, 0, 0] S2x1x512x32
  slices_S2x16x512x32_o0_5_0_0_S2x1x512x32 : S2x16x512x32.Slices ![0, 5, 0, 0] S2x1x512x32
  slices_S2x16x512x32_o0_6_0_0_S2x1x512x32 : S2x16x512x32.Slices ![0, 6, 0, 0] S2x1x512x32
  slices_S2x16x512x32_o0_7_0_0_S2x1x512x32 : S2x16x512x32.Slices ![0, 7, 0, 0] S2x1x512x32
  slices_S2x16x512x32_o0_8_0_0_S2x1x512x32 : S2x16x512x32.Slices ![0, 8, 0, 0] S2x1x512x32
  slices_S2x16x512x32_o0_9_0_0_S2x1x512x32 : S2x16x512x32.Slices ![0, 9, 0, 0] S2x1x512x32
  slices_S2x16x512x32_o0_10_0_0_S2x1x512x32 : S2x16x512x32.Slices ![0, 10, 0, 0] S2x1x512x32
  slices_S2x16x512x32_o0_11_0_0_S2x1x512x32 : S2x16x512x32.Slices ![0, 11, 0, 0] S2x1x512x32
  slices_S2x16x512x32_o0_12_0_0_S2x1x512x32 : S2x16x512x32.Slices ![0, 12, 0, 0] S2x1x512x32
  slices_S2x16x512x32_o0_13_0_0_S2x1x512x32 : S2x16x512x32.Slices ![0, 13, 0, 0] S2x1x512x32
  slices_S2x16x512x32_o0_14_0_0_S2x1x512x32 : S2x16x512x32.Slices ![0, 14, 0, 0] S2x1x512x32
  slices_S2x16x512x32_o0_15_0_0_S2x1x512x32 : S2x16x512x32.Slices ![0, 15, 0, 0] S2x1x512x32
  concatenates_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x16x512x32_d1 : Shape.Concatenates [S2x1x512x32, S2x1x512x32, S2x1x512x32, S2x1x512x32, S2x1x512x32, S2x1x512x32, S2x1x512x32, S2x1x512x32, S2x1x512x32, S2x1x512x32, S2x1x512x32, S2x1x512x32, S2x1x512x32, S2x1x512x32, S2x1x512x32, S2x1x512x32] S2x16x512x32 1
  concatenates_S2x16x512x32_S2x16x512x32_S2x32x512x32_d1 : Shape.Concatenates [S2x16x512x32, S2x16x512x32] S2x32x512x32 1
  slices_S2x32x512x32_o0_0_0_0_S2x32x16x32 : S2x32x512x32.Slices ![0, 0, 0, 0] S2x32x16x32
  slices_S2x32x512x32_o0_0_16_0_S2x32x16x32 : S2x32x512x32.Slices ![0, 0, 16, 0] S2x32x16x32
  slices_S2x32x512x32_o0_0_32_0_S2x32x480x32 : S2x32x512x32.Slices ![0, 0, 32, 0] S2x32x480x32
  slices_S2x32x16x32_o0_0_0_0_S2x32x1x32 : S2x32x16x32.Slices ![0, 0, 0, 0] S2x32x1x32
  slices_S2x32x16x32_o0_0_1_0_S2x32x1x32 : S2x32x16x32.Slices ![0, 0, 1, 0] S2x32x1x32
  slices_S2x32x16x32_o0_0_2_0_S2x32x1x32 : S2x32x16x32.Slices ![0, 0, 2, 0] S2x32x1x32
  slices_S2x32x16x32_o0_0_3_0_S2x32x1x32 : S2x32x16x32.Slices ![0, 0, 3, 0] S2x32x1x32
  slices_S2x32x16x32_o0_0_4_0_S2x32x1x32 : S2x32x16x32.Slices ![0, 0, 4, 0] S2x32x1x32
  slices_S2x32x16x32_o0_0_5_0_S2x32x1x32 : S2x32x16x32.Slices ![0, 0, 5, 0] S2x32x1x32
  slices_S2x32x16x32_o0_0_6_0_S2x32x1x32 : S2x32x16x32.Slices ![0, 0, 6, 0] S2x32x1x32
  slices_S2x32x16x32_o0_0_7_0_S2x32x1x32 : S2x32x16x32.Slices ![0, 0, 7, 0] S2x32x1x32
  slices_S2x32x16x32_o0_0_8_0_S2x32x1x32 : S2x32x16x32.Slices ![0, 0, 8, 0] S2x32x1x32
  slices_S2x32x16x32_o0_0_9_0_S2x32x1x32 : S2x32x16x32.Slices ![0, 0, 9, 0] S2x32x1x32
  slices_S2x32x16x32_o0_0_10_0_S2x32x1x32 : S2x32x16x32.Slices ![0, 0, 10, 0] S2x32x1x32
  slices_S2x32x16x32_o0_0_11_0_S2x32x1x32 : S2x32x16x32.Slices ![0, 0, 11, 0] S2x32x1x32
  slices_S2x32x16x32_o0_0_12_0_S2x32x1x32 : S2x32x16x32.Slices ![0, 0, 12, 0] S2x32x1x32
  slices_S2x32x16x32_o0_0_13_0_S2x32x1x32 : S2x32x16x32.Slices ![0, 0, 13, 0] S2x32x1x32
  slices_S2x32x16x32_o0_0_14_0_S2x32x1x32 : S2x32x16x32.Slices ![0, 0, 14, 0] S2x32x1x32
  slices_S2x32x16x32_o0_0_15_0_S2x32x1x32 : S2x32x16x32.Slices ![0, 0, 15, 0] S2x32x1x32
  concatenates_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x16x32_d2 : Shape.Concatenates [S2x32x1x32, S2x32x1x32, S2x32x1x32, S2x32x1x32, S2x32x1x32, S2x32x1x32, S2x32x1x32, S2x32x1x32, S2x32x1x32, S2x32x1x32, S2x32x1x32, S2x32x1x32, S2x32x1x32, S2x32x1x32, S2x32x1x32, S2x32x1x32] S2x32x16x32 2
  inb_S2x32x512x32_S2x32x16x32_0_0_0_0 : ∀ a, (![0, 0, 0, 0] : Fin 4 → Nat) a + S2x32x16x32.size a ≤ S2x32x512x32.size a
  h_S2x32x16x32 : 0 < S2x32x16x32.numel
  inb_S2x32x512x32_S2x32x16x32_0_0_16_0 : ∀ a, (![0, 0, 16, 0] : Fin 4 → Nat) a + S2x32x16x32.size a ≤ S2x32x512x32.size a
  inb_S2x32x512x32_S2x32x480x32_0_0_32_0 : ∀ a, (![0, 0, 32, 0] : Fin 4 → Nat) a + S2x32x480x32.size a ≤ S2x32x512x32.size a
  h_S2x32x480x32 : 0 < S2x32x480x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x512x32.size a ≤ S8x512x512x32.size a
  hwx0_0 : ∀ i : grid0.Coords, EltTy.bits .f32 = 32 ∨ (Rect.block (s := S8x512x512x32) S2x32x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x512x32.size a ≤ S8x512x512x32.size a
  hwx0_1 : ∀ i : grid0.Coords, EltTy.bits .f32 = 32 ∨ (Rect.block (s := S8x512x512x32) S2x32x512x32.size (cc0_transform_1 i) (hinb0_1 i)).WholeWords (EltTy.packing .f32)

variable [Facts₀]

abbrev win0_0 : Pipeline.Window sig grid0 :=
  Pipeline.Window.ofSpec (Memref.whole main_arg0) S2x32x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x32x512x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x512x32 : Shape := ⟨4, ![8, 512, 512, 32]⟩
abbrev S8x16x512x32 : Shape := ⟨4, ![8, 16, 512, 32]⟩
abbrev S_ : Shape := ⟨0, ![]⟩
abbrev S1 : Shape := ⟨1, ![1]⟩
abbrev S8x512x16x32 : Shape := ⟨4, ![8, 512, 16, 32]⟩

abbrev nBuf : Space → Nat
  | .hbm => 11
  | .vmem => 0
  | .smem => 0
  | _ => 0

abbrev bufTy : (tb : Table) → Fin (tcTables nBuf tb) → BufTy
  | .hbm, ⟨0, _⟩ => ⟨S8x512x512x32, .f32⟩
  | .hbm, ⟨1, _⟩ => ⟨S8x16x512x32, .f32⟩
  | .hbm, ⟨2, _⟩ => ⟨S8x16x512x32, .f32⟩
  | .hbm, ⟨3, _⟩ => ⟨S_, .i32⟩
  | .hbm, ⟨4, _⟩ => ⟨S1, .i32⟩
  | .hbm, ⟨5, _⟩ => ⟨S8x512x512x32, .f32⟩
  | .hbm, ⟨6, _⟩ => ⟨S8x512x16x32, .f32⟩
  | .hbm, ⟨7, _⟩ => ⟨S8x512x16x32, .f32⟩
  | .hbm, ⟨8, _⟩ => ⟨S_, .i32⟩
  | .hbm, ⟨9, _⟩ => ⟨S1, .i32⟩
  | .hbm, ⟨10, _⟩ => ⟨S8x512x512x32, .f32⟩
  | _, _ => ⟨S8x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  slices_S8x512x512x32_S8x16x512x32_0_0_0_0 : S8x512x512x32.Slices ![0, 0, 0, 0] S8x16x512x32
  bcast_S_S1 : S_.BroadcastsInDim S1 (![] : Fin 0 → Fin S1.rank)
  slices_S8x512x512x32_S8x512x16x32_0_0_0_0 : S8x512x512x32.Slices ![0, 0, 0, 0] S8x512x16x32
  scatter_S8x512x512x32_S1_S8x16x512x32_0123_n_1_0_wf : ScatterDims.WF S8x512x512x32 S1 S8x16x512x32 [0, 1, 2, 3] [] [1] 0
  scatter_S8x512x512x32_S1_S8x512x16x32_0123_n_2_0_wf : ScatterDims.WF S8x512x512x32 S1 S8x512x16x32 [0, 1, 2, 3] [] [2] 0

variable [Facts₀]

def scatter_S8x512x512x32_S1_S8x16x512x32_0123_n_1_0 : ScatterDims S8x512x512x32 S1 S8x16x512x32 where
  updateWindowDims := [0, 1, 2, 3]
  insertedWindowDims := []
  scatterDimsToOperandDims := [1]
  indexVectorDim := 0
  wf := scatter_S8x512x512x32_S1_S8x16x512x32_0123_n_1_0_wf
def scatter_S8x512x512x32_S1_S8x512x16x32_0123_n_2_0 : ScatterDims S8x512x512x32 S1 S8x512x16x32 where
  updateWindowDims := [0, 1, 2, 3]
  insertedWindowDims := []
  scatterDimsToOperandDims := [2]
  indexVectorDim := 0
  wf := scatter_S8x512x512x32_S1_S8x512x16x32_0123_n_2_0_wf

class Facts : Prop extends Facts₀ where

variable [Facts]
-- ==== Proof.LibScatterWindow.lean ====
/-
  A window scatter read at an index.

  The host's scatter is a left fold over the update indices in row-major order: update index `j` lands on
  the operand index `resultIdx? j`, where the body `f` combines what the fold holds there with the update's
  element. When every update index lands INSIDE the operand, at `g j`, and `g` is injective — one start
  index and a window that fits, so each operand element meets at most one update — the fold reads, element by
  element, as the spec's sentence: at `g j` the operand's element combined ONCE with update element `j`, at an
  index no update lands on the operand's element. No order of the updates enters the result.
-/
import Idealize.ShloMosaic.PureOps.ShapeOps

namespace Idealize.ShloMosaic.ScatterWindow

/-! ## The fold, over any list of distinct update positions -/

section Fold

variable {ι κ α : Type} [DecidableEq κ] (g : ι → κ) (f : α → α → α) (upd : ι → α)

/-- One step of the fold: the element at `g n` combined with update `n`, every other element kept. -/
def step (r : κ → α) (n : ι) : κ → α := fun i' => if i' = g n then f (r (g n)) (upd n) else r i'

/-- An index that no update of the list lands on keeps its element through the fold. -/
theorem foldl_miss : ∀ (l : List ι) (r : κ → α) (i : κ), (∀ n ∈ l, g n ≠ i) → l.foldl (step g f upd) r i = r i
  | [], _, _, _ => rfl
  | n :: l, r, i, h => by
    rw [List.foldl_cons, foldl_miss l _ i fun k hk => h k (List.mem_cons_of_mem _ hk)]
    exact if_neg fun e => h n List.mem_cons_self e.symm

/-- The index update `n` lands on holds, after the fold over a list of distinct positions holding `n`, the
    starting element combined once with update `n`: the positions before `n` miss it (`g` is injective), and so do
    the ones after. -/
theorem foldl_hit (hg : Function.Injective g) : ∀ (l : List ι) (r : κ → α) (n : ι), l.Nodup → n ∈ l →
    l.foldl (step g f upd) r (g n) = f (r (g n)) (upd n)
  | [], _, _, _, hn => absurd hn List.not_mem_nil
  | k :: l, r, n, hnd, hn => by
    rw [List.foldl_cons]
    rcases List.mem_cons.mp hn with rfl | hn'
    · rw [foldl_miss g f upd l _ (g n) fun k hk e => (List.nodup_cons.mp hnd).1 (hg e ▸ hk)]
      exact if_pos rfl
    · rw [foldl_hit hg l _ n (List.nodup_cons.mp hnd).2 hn']
      have hne : g n ≠ g k := fun e => (List.nodup_cons.mp hnd).1 (hg e ▸ hn')
      show f (if g n = g k then _ else r (g n)) (upd n) = _
      rw [if_neg hne]

end Fold

/-! ## The host's scatter -/

variable {α : Type} {s si u : Shape} {w : Nat} (d : ScatterDims s si u) (f : α → α → α) (x : s.Idx → α)
  (idx : IVec si w) (upd : u.Idx → α) (g : u.Idx → s.Idx)

/-- With every update index landing inside the operand (at `g j`), the scatter is the fold of `step` over the update
    positions. -/
theorem scatter_eq_foldl (hres : ∀ j, d.resultIdx? j idx = some (g j)) :
    Host.scatter d f x idx upd
      = (List.finRange u.numel).foldl (step (fun n => g (u.rowMajor.symm n)) f fun n => upd (u.rowMajor.symm n)) x := by
  unfold Host.scatter
  congr 1
  funext r n
  rw [hres]
  rfl

/-- **A window scatter at an index an update lands on**: the operand's element combined with that update's. -/
theorem scatter_apply_hit (hres : ∀ j, d.resultIdx? j idx = some (g j)) (hg : Function.Injective g) (j : u.Idx) :
    Host.scatter d f x idx upd (g j) = f (x (g j)) (upd j) := by
  rw [scatter_eq_foldl d f x idx upd g hres]
  have h := foldl_hit (fun n => g (u.rowMajor.symm n)) f (fun n => upd (u.rowMajor.symm n))
    (fun a b e => u.rowMajor.symm.injective (hg e)) (List.finRange u.numel) x (u.rowMajor j) (List.nodup_finRange _)
    (List.mem_finRange _)
  simpa only [Equiv.symm_apply_apply] using h

/-- **A window scatter at an index no update lands on**: the operand's element. -/
theorem scatter_apply_miss (hres : ∀ j, d.resultIdx? j idx = some (g j)) (i : s.Idx) (hi : ∀ j, g j ≠ i) :
    Host.scatter d f x idx upd i = x i := by
  rw [scatter_eq_foldl d f x idx upd g hres]
  exact foldl_miss _ _ _ _ _ _ fun n _ => hi _

end Idealize.ShloMosaic.ScatterWindow
-- ==== Proof.FoldSpec.lean ====
/-
  The specification: two folds of a border strip onto its neighbour, first along H, then along W.

  For an array `x` over (batch, H, W, channel) = (8, 512, 512, 32) and the strip width 16:
    `foldH x` adds to each row `h` of [16, 32) the mirrored row `31 - h` of [0, 16), and keeps every other row;
    `foldW y` does the same along W to columns [16, 32) from the mirrored columns of [0, 16);
  the result is `foldW (foldH x)`: the W-fold reads the rows the H-fold has already updated. Values are extended
  reals; the only arithmetic is one `+` per folded element, so nothing here needs finiteness.
-/
import Idealize.ShloMosaic.PureOps.Ideal

noncomputable section

namespace Cert.FoldSpec

open Idealize.ShloMosaic

/-- The array's shape. -/
abbrev Sarr : Shape := ⟨4, ![8, 512, 512, 32]⟩

/-- The index with its H coordinate `h` mirrored in the strip pair [0, 32): `31 - h`. -/
def mirH (i : Sarr.Idx) : Sarr.Idx := fun a => match a with
  | ⟨0, _⟩ => i 0
  | ⟨1, _⟩ => ⟨31 - (i 1).val, by show 31 - (i 1).val < 512; omega⟩
  | ⟨2, _⟩ => i 2
  | ⟨3, _⟩ => i 3

/-- The index with its W coordinate `w` mirrored in the strip pair [0, 32): `31 - w`. -/
def mirW (i : Sarr.Idx) : Sarr.Idx := fun a => match a with
  | ⟨0, _⟩ => i 0
  | ⟨1, _⟩ => i 1
  | ⟨2, _⟩ => ⟨31 - (i 2).val, by show 31 - (i 2).val < 512; omega⟩
  | ⟨3, _⟩ => i 3

/-- The H-fold: rows [16, 32) receive the mirrored rows of [0, 16). -/
def foldH (x : Sarr.Idx → EReal) : Sarr.Idx → EReal := fun i =>
  if 16 ≤ (i 1).val ∧ (i 1).val < 32 then x i + x (mirH i) else x i

/-- The W-fold: columns [16, 32) receive the mirrored columns of [0, 16). -/
def foldW (y : Sarr.Idx → EReal) : Sarr.Idx → EReal := fun i =>
  if 16 ≤ (i 2).val ∧ (i 2).val < 32 then y i + y (mirW i) else y i

/-- The whole operation: the W-fold of the H-fold. -/
def fold2d (x : Sarr.Idx → EReal) : Sarr.Idx → EReal := foldW (foldH x)

theorem mirH_val (i : Sarr.Idx) : ((mirH i) 1).val = 31 - (i 1).val := rfl
theorem mirW_val (i : Sarr.Idx) : ((mirW i) 2).val = 31 - (i 2).val := rfl

end Cert.FoldSpec

end
-- ==== Proof.RefValue.lean ====
/-
  The reference program's result, at the ideal instance, is the specification `fold2d`.

  The reference updates rows [16, 32) by a scatter-add of ONE window: the update is the first sixteen rows reversed,
  its start index the constant 16 on the H axis. Update element `j` therefore lands on row `16 + j₁`, always inside the
  array, and distinct update elements land on distinct array elements; so the scatter's fold reads, at a row of
  [16, 32), the array's element plus the one update element that lands there (row `15 - (h - 16) = 31 - h` of the
  array, through the reversal and the slice), and elsewhere the array's element: `foldH`. The second scatter does the
  same along W over the result of the first: `foldW`.
-/
import proofs.«144828_j63909113364644_1_alg».proof.Proof.Gen.ReferenceIdeal.Read
import proofs.«144828_j63909113364644_1_alg».proof.Proof.LibScatterWindow
import proofs.«144828_j63909113364644_1_alg».proof.Proof.FoldSpec

noncomputable section

namespace Cert.ReferenceIdeal.RefValue

open Cert.ReferenceIdeal Cert.ReferenceIdeal.Gen Cert.ReferenceIdeal.Read Idealize.ShloMosaic
open Idealize.ShloMosaic.ScatterWindow Cert.FoldSpec

/-! ## Where the H scatter's update elements land -/

/-- The H scatter's dimension numbers: a full-rank window, its start on axis 1. -/
abbrev dH := scatter_S8x512x512x32_S1_S8x16x512x32_0123_n_1_0
/-- The W scatter's: a full-rank window, its start on axis 2. -/
abbrev dW := scatter_S8x512x512x32_S1_S8x512x16x32_0123_n_2_0

/-- The start index the program broadcasts: the constant 16. -/
abbrev start16 : IVec S1 32 := val_main_v2 (F := Ideal)
abbrev start16' : IVec S1 32 := val_main_v6 (F := Ideal)

/-- Update element `j` of the H scatter lands on row `16 + j₁`. -/
def landH (j : S8x16x512x32.Idx) : S8x512x512x32.Idx := fun a => match a with
  | ⟨0, _⟩ => ⟨(j 0).val, (j 0).isLt⟩
  | ⟨1, _⟩ => ⟨16 + (j 1).val, by have h : (j 1).val < 16 := (j 1).isLt; show 16 + (j 1).val < 512; omega⟩
  | ⟨2, _⟩ => ⟨(j 2).val, (j 2).isLt⟩
  | ⟨3, _⟩ => ⟨(j 3).val, (j 3).isLt⟩

/-- Update element `j` of the W scatter lands on column `16 + j₂`. -/
def landW (j : S8x512x16x32.Idx) : S8x512x512x32.Idx := fun a => match a with
  | ⟨0, _⟩ => ⟨(j 0).val, (j 0).isLt⟩
  | ⟨1, _⟩ => ⟨(j 1).val, (j 1).isLt⟩
  | ⟨2, _⟩ => ⟨16 + (j 2).val, by have h : (j 2).val < 16 := (j 2).isLt; show 16 + (j 2).val < 512; omega⟩
  | ⟨3, _⟩ => ⟨(j 3).val, (j 3).isLt⟩

/-- Start plus window coordinate, axis by axis, for the H scatter: the landing index. -/
theorem sumH (j : S8x16x512x32.Idx) (a : Fin 4) :
    dH.start j start16 a + (dH.window j a : Int) = ((landH j a).val : Int) := by
  match a with
  | ⟨0, _⟩ =>
    show dH.start j start16 (0 : Fin 4) + (dH.window j (0 : Fin 4) : Int) = (((j 0).val : Nat) : Int)
    unfold ScatterDims.start ScatterDims.window
    rw [dif_neg (by decide), dif_pos (by decide)]
    show (0 : Int) + (((j 0).val : Nat) : Int) = _
    omega
  | ⟨1, _⟩ =>
    show dH.start j start16 (1 : Fin 4) + (dH.window j (1 : Fin 4) : Int) = ((16 + (j 1).val : Nat) : Int)
    unfold ScatterDims.start ScatterDims.window
    rw [dif_pos (by decide), dif_pos (by decide)]
    show (16 : Int) + (((j 1).val : Nat) : Int) = _
    omega
  | ⟨2, _⟩ =>
    show dH.start j start16 (2 : Fin 4) + (dH.window j (2 : Fin 4) : Int) = (((j 2).val : Nat) : Int)
    unfold ScatterDims.start ScatterDims.window
    rw [dif_neg (by decide), dif_pos (by decide)]
    show (0 : Int) + (((j 2).val : Nat) : Int) = _
    omega
  | ⟨3, _⟩ =>
    show dH.start j start16 (3 : Fin 4) + (dH.window j (3 : Fin 4) : Int) = (((j 3).val : Nat) : Int)
    unfold ScatterDims.start ScatterDims.window
    rw [dif_neg (by decide), dif_pos (by decide)]
    show (0 : Int) + (((j 3).val : Nat) : Int) = _
    omega

/-- The same for the W scatter. -/
theorem sumW (j : S8x512x16x32.Idx) (a : Fin 4) :
    dW.start j start16' a + (dW.window j a : Int) = ((landW j a).val : Int) := by
  match a with
  | ⟨0, _⟩ =>
    show dW.start j start16' (0 : Fin 4) + (dW.window j (0 : Fin 4) : Int) = (((j 0).val : Nat) : Int)
    unfold ScatterDims.start ScatterDims.window
    rw [dif_neg (by decide), dif_pos (by decide)]
    show (0 : Int) + (((j 0).val : Nat) : Int) = _
    omega
  | ⟨1, _⟩ =>
    show dW.start j start16' (1 : Fin 4) + (dW.window j (1 : Fin 4) : Int) = (((j 1).val : Nat) : Int)
    unfold ScatterDims.start ScatterDims.window
    rw [dif_neg (by decide), dif_pos (by decide)]
    show (0 : Int) + (((j 1).val : Nat) : Int) = _
    omega
  | ⟨2, _⟩ =>
    show dW.start j start16' (2 : Fin 4) + (dW.window j (2 : Fin 4) : Int) = ((16 + (j 2).val : Nat) : Int)
    unfold ScatterDims.start ScatterDims.window
    rw [dif_pos (by decide), dif_pos (by decide)]
    show (16 : Int) + (((j 2).val : Nat) : Int) = _
    omega
  | ⟨3, _⟩ =>
    show dW.start j start16' (3 : Fin 4) + (dW.window j (3 : Fin 4) : Int) = (((j 3).val : Nat) : Int)
    unfold ScatterDims.start ScatterDims.window
    rw [dif_neg (by decide), dif_pos (by decide)]
    show (0 : Int) + (((j 3).val : Nat) : Int) = _
    omega

/-- Every update element of the H scatter lands inside the array, at `landH`. -/
theorem resH (j : S8x16x512x32.Idx) : dH.resultIdx? j start16 = some (landH j) := by
  have h : ∀ a, 0 ≤ dH.start j start16 a + dH.window j a ∧ dH.start j start16 a + dH.window j a < S8x512x512x32.size a :=
    fun a => by rw [sumH]; exact ⟨Int.natCast_nonneg _, by exact_mod_cast (landH j a).isLt⟩
  unfold ScatterDims.resultIdx?
  rw [dif_pos h]
  congr 1
  funext a
  apply Fin.ext
  show (dH.start j start16 a + dH.window j a).toNat = (landH j a).val
  rw [sumH]; exact Int.toNat_natCast _

/-- Every update element of the W scatter lands inside the array, at `landW`. -/
theorem resW (j : S8x512x16x32.Idx) : dW.resultIdx? j start16' = some (landW j) := by
  have h : ∀ a, 0 ≤ dW.start j start16' a + dW.window j a ∧ dW.start j start16' a + dW.window j a < S8x512x512x32.size a :=
    fun a => by rw [sumW]; exact ⟨Int.natCast_nonneg _, by exact_mod_cast (landW j a).isLt⟩
  unfold ScatterDims.resultIdx?
  rw [dif_pos h]
  congr 1
  funext a
  apply Fin.ext
  show (dW.start j start16' a + dW.window j a).toNat = (landW j a).val
  rw [sumW]; exact Int.toNat_natCast _

/-- Distinct update elements land on distinct array elements. -/
theorem landH_inj : Function.Injective landH := fun j j' e => by
  funext a
  apply Fin.ext
  match a with
  | ⟨0, _⟩ => exact congrArg (fun k : S8x512x512x32.Idx => (k 0).val) e
  | ⟨1, _⟩ => have := congrArg (fun k : S8x512x512x32.Idx => (k 1).val) e
              have e1 : 16 + (j 1).val = 16 + (j' 1).val := this
              show (j 1).val = (j' 1).val; omega
  | ⟨2, _⟩ => exact congrArg (fun k : S8x512x512x32.Idx => (k 2).val) e
  | ⟨3, _⟩ => exact congrArg (fun k : S8x512x512x32.Idx => (k 3).val) e

theorem landW_inj : Function.Injective landW := fun j j' e => by
  funext a
  apply Fin.ext
  match a with
  | ⟨0, _⟩ => exact congrArg (fun k : S8x512x512x32.Idx => (k 0).val) e
  | ⟨1, _⟩ => exact congrArg (fun k : S8x512x512x32.Idx => (k 1).val) e
  | ⟨2, _⟩ => have := congrArg (fun k : S8x512x512x32.Idx => (k 2).val) e
              have e1 : 16 + (j 2).val = 16 + (j' 2).val := this
              show (j 2).val = (j' 2).val; omega
  | ⟨3, _⟩ => exact congrArg (fun k : S8x512x512x32.Idx => (k 3).val) e

/-- The update element that lands on a row of [16, 32): row `h - 16` of the update. -/
def preH (i : S8x512x512x32.Idx) (h : 16 ≤ (i 1).val ∧ (i 1).val < 32) : S8x16x512x32.Idx := fun a => match a with
  | ⟨0, _⟩ => ⟨(i 0).val, (i 0).isLt⟩
  | ⟨1, _⟩ => ⟨(i 1).val - 16, by show (i 1).val - 16 < 16; omega⟩
  | ⟨2, _⟩ => ⟨(i 2).val, (i 2).isLt⟩
  | ⟨3, _⟩ => ⟨(i 3).val, (i 3).isLt⟩

/-- The update element that lands on a column of [16, 32): column `w - 16` of the update. -/
def preW (i : S8x512x512x32.Idx) (h : 16 ≤ (i 2).val ∧ (i 2).val < 32) : S8x512x16x32.Idx := fun a => match a with
  | ⟨0, _⟩ => ⟨(i 0).val, (i 0).isLt⟩
  | ⟨1, _⟩ => ⟨(i 1).val, (i 1).isLt⟩
  | ⟨2, _⟩ => ⟨(i 2).val - 16, by show (i 2).val - 16 < 16; omega⟩
  | ⟨3, _⟩ => ⟨(i 3).val, (i 3).isLt⟩

theorem landH_preH (i : S8x512x512x32.Idx) (h : 16 ≤ (i 1).val ∧ (i 1).val < 32) : landH (preH i h) = i := by
  funext a
  apply Fin.ext
  match a with
  | ⟨0, _⟩ => rfl
  | ⟨1, _⟩ => show 16 + ((i 1).val - 16) = (i 1).val; omega
  | ⟨2, _⟩ => rfl
  | ⟨3, _⟩ => rfl

theorem landW_preW (i : S8x512x512x32.Idx) (h : 16 ≤ (i 2).val ∧ (i 2).val < 32) : landW (preW i h) = i := by
  funext a
  apply Fin.ext
  match a with
  | ⟨0, _⟩ => rfl
  | ⟨1, _⟩ => rfl
  | ⟨2, _⟩ => show 16 + ((i 2).val - 16) = (i 2).val; omega
  | ⟨3, _⟩ => rfl

/-! ## The two scatters are the two folds -/

/-- The H scatter's update at the element that lands on row `h`: the array at the mirrored row `31 - h` (the update is the
    first sixteen rows REVERSED, so its row `h - 16` is the array's row `15 - (h - 16)`). -/
theorem updH_apply (x : S8x512x512x32.Idx → EReal) (i : S8x512x512x32.Idx) (h : 16 ≤ (i 1).val ∧ (i 1).val < 32) :
    val_main_v1 (F := Ideal) x (preH i h) = x (mirH i) := by
  unfold val_main_v1 Host.reverse
  rw [val_main_v0_apply]
  congr 1
  funext a
  apply Fin.ext
  match a with
  | ⟨0, _⟩ => rfl
  | ⟨1, _⟩ =>
    show (Fin.rev (preH i h 1)).val = 31 - (i 1).val
    rw [Fin.val_rev]
    show 16 - ((i 1).val - 16 + 1) = 31 - (i 1).val
    omega
  | ⟨2, _⟩ => rfl
  | ⟨3, _⟩ => rfl

/-- The first scatter is the H-fold. -/
theorem v3_eq (x : S8x512x512x32.Idx → EReal) : val_main_v3 (F := Ideal) x = foldH x := by
  funext i
  unfold val_main_v3 foldH
  by_cases h : 16 ≤ (i 1).val ∧ (i 1).val < 32
  · rw [if_pos h]
    have e := scatter_apply_hit (α := EReal) dH (FloatOps.addf (F := Ideal) (φ := .f32)) x start16
      (val_main_v1 (F := Ideal) x : S8x16x512x32.Idx → EReal) landH resH landH_inj (preH i h)
    rw [landH_preH, updH_apply] at e
    exact e
  · rw [if_neg h]
    refine scatter_apply_miss (α := EReal) dH (FloatOps.addf (F := Ideal) (φ := .f32)) x start16
      (val_main_v1 (F := Ideal) x : S8x16x512x32.Idx → EReal) landH resH i fun j e => h ?_
    have e1 : 16 + (j 1).val = (i 1).val := congrArg (fun k : S8x512x512x32.Idx => (k 1).val) e
    have h1 : (j 1).val < 16 := (j 1).isLt
    omega

/-- The W scatter's update at the element that lands on column `w`: the first scatter's result at the mirrored column. -/
theorem updW_apply (x : S8x512x512x32.Idx → EReal) (i : S8x512x512x32.Idx) (h : 16 ≤ (i 2).val ∧ (i 2).val < 32) :
    val_main_v5 (F := Ideal) x (preW i h) = val_main_v3 (F := Ideal) x (mirW i) := by
  unfold val_main_v5 Host.reverse
  rw [val_main_v4_apply]
  congr 1
  funext a
  apply Fin.ext
  match a with
  | ⟨0, _⟩ => rfl
  | ⟨1, _⟩ => rfl
  | ⟨2, _⟩ =>
    show (Fin.rev (preW i h 2)).val = 31 - (i 2).val
    rw [Fin.val_rev]
    show 16 - ((i 2).val - 16 + 1) = 31 - (i 2).val
    omega
  | ⟨3, _⟩ => rfl

/-- The second scatter is the W-fold of the first's result. -/
theorem v7_eq (x : S8x512x512x32.Idx → EReal) : val_main_v7 (F := Ideal) x = foldW (val_main_v3 (F := Ideal) x) := by
  funext i
  unfold val_main_v7 foldW
  by_cases h : 16 ≤ (i 2).val ∧ (i 2).val < 32
  · rw [if_pos h]
    have e := scatter_apply_hit (α := EReal) dW (FloatOps.addf (F := Ideal) (φ := .f32))
      (val_main_v3 (F := Ideal) x : S8x512x512x32.Idx → EReal) start16'
      (val_main_v5 (F := Ideal) x : S8x512x16x32.Idx → EReal) landW resW landW_inj (preW i h)
    rw [landW_preW, updW_apply] at e
    exact e
  · rw [if_neg h]
    refine scatter_apply_miss (α := EReal) dW (FloatOps.addf (F := Ideal) (φ := .f32))
      (val_main_v3 (F := Ideal) x : S8x512x512x32.Idx → EReal) start16'
      (val_main_v5 (F := Ideal) x : S8x512x16x32.Idx → EReal) landW resW i fun j e => h ?_
    have e1 : 16 + (j 2).val = (i 2).val := congrArg (fun k : S8x512x512x32.Idx => (k 2).val) e
    have h1 : (j 2).val < 16 := (j 2).isLt
    omega

/-- **The reference's result is the specification.** -/
theorem result_eq (x : S8x512x512x32.Idx → EReal) : val_main_v7 (F := Ideal) x = fold2d x := by
  rw [v7_eq, v3_eq]; rfl

end Cert.ReferenceIdeal.RefValue

end
-- ==== Proof.BlockValue.lean ====
/-
  What the kernel's body leaves in its output block: the fold of its input block.

  At grid point (bi, hi) the body loads its input block `v` over (2, 32, 512, 32) — two batch entries, the 32 rows
  [32·hi, 32·hi + 32), every column and channel — and stores three column strips that tile the output block:
  columns [0, 16) and [32, 512) of the H-folded block `u`, and columns [16, 32) of `u` plus the mirrored columns
  `31 - w` of `u`. The H-folded block keeps rows [0, 16) of `v`, and in rows [16, 32) adds the mirrored row `31 - r`
  when `hi = 0` and the constant zero otherwise (the reversal is a stack of sixteen one-row slices in reversed
  order). Read at an index, the three strips are ONE function of the block index (`blkFold`), so the block the
  stores cover holds it.
-/
import proofs.«144828_j63909113364644_1_alg».proof.Proof.Gen.KernelIdeal.Frame
import Idealize.ShloMosaic.Lib.Pipeline.Value
import Idealize.ShloMosaic.Lib.Tactic
import Idealize.ShloMosaic.PureOps.Ideal.Laws
import Idealize.ShloMosaic.Lib.StableHlo.Predicate

noncomputable section

namespace Cert.KernelIdeal.BlockValue

open Cert.KernelIdeal Cert.KernelIdeal.Gen Idealize.ShloMosaic Idealize.ShloMosaic.TcCoe Idealize.SL.Sem

/-! ## The block's fold, as a function of the block index -/

/-- The block index with its row `r` mirrored: `31 - r`. -/
def bmirH (y : S2x32x512x32.Idx) : S2x32x512x32.Idx := fun a => match a with
  | ⟨0, _⟩ => y 0
  | ⟨1, _⟩ => ⟨31 - (y 1).val, by show 31 - (y 1).val < 32; omega⟩
  | ⟨2, _⟩ => y 2
  | ⟨3, _⟩ => y 3

/-- The block index with its column `w` mirrored: `31 - w`. -/
def bmirW (y : S2x32x512x32.Idx) : S2x32x512x32.Idx := fun a => match a with
  | ⟨0, _⟩ => y 0
  | ⟨1, _⟩ => y 1
  | ⟨2, _⟩ => ⟨31 - (y 2).val, by show 31 - (y 2).val < 512; omega⟩
  | ⟨3, _⟩ => y 3

/-- The H-folded block: rows [16, 32) plus the mirrored row on the first H tile, plus zero on the others. -/
def blkH (first : Prop) [Decidable first] (v : S2x32x512x32.Idx → EReal) : S2x32x512x32.Idx → EReal := fun y =>
  if 16 ≤ (y 1).val then v y + (if first then v (bmirH y) else 0) else v y

/-- The W-fold of a block: columns [16, 32) plus the mirrored column. -/
def blkW (u : S2x32x512x32.Idx → EReal) : S2x32x512x32.Idx → EReal := fun y =>
  if 16 ≤ (y 2).val ∧ (y 2).val < 32 then u y + u (bmirW y) else u y

/-- What the body leaves: the W-fold of the H-folded block. -/
def blkFold (first : Prop) [Decidable first] (v : S2x32x512x32.Idx → EReal) : S2x32x512x32.Idx → EReal :=
  blkW (blkH first v)

/-! ## The two reversed stacks -/

/-- A half's index with its row reversed: `15 - r`. -/
def revRow (z : S2x16x512x32.Idx) : S2x16x512x32.Idx := fun a => match a with
  | ⟨0, _⟩ => z 0
  | ⟨1, _⟩ => ⟨15 - (z 1).val, by show 15 - (z 1).val < 16; omega⟩
  | ⟨2, _⟩ => z 2
  | ⟨3, _⟩ => z 3

/-- Row `15 - n` of a sixteen-row half is a one-row slice. -/
theorem slicesRow : ∀ n : Fin 16, S2x16x512x32.Slices ![0, 15 - n.val, 0, 0] S2x1x512x32 := by decide

/-- A half's index with its row dropped to the one row of a one-row slice. -/
def oneRow (z : S2x16x512x32.Idx) : S2x1x512x32.Idx := fun a => match a with
  | ⟨0, _⟩ => ⟨(z 0).val, (z 0).isLt⟩
  | ⟨1, _⟩ => ⟨0, by show 0 < 1; omega⟩
  | ⟨2, _⟩ => ⟨(z 2).val, (z 2).isLt⟩
  | ⟨3, _⟩ => ⟨(z 3).val, (z 3).isLt⟩

/-- The stack of a half's sixteen one-row slices in reversed order is the half with its rows reversed: position `r`
    of the stack is the slice of row `15 - r`. -/
theorem revRows_apply (v2 : S2x16x512x32.Idx → EReal) (z : S2x16x512x32.Idx) :
    concatenate S2x16x512x32 1
      [⟨S2x1x512x32, extractStridedSlice S2x1x512x32 ![0, 15, 0, 0] v2 slices_S2x16x512x32_o0_15_0_0_S2x1x512x32⟩,
        ⟨S2x1x512x32, extractStridedSlice S2x1x512x32 ![0, 14, 0, 0] v2 slices_S2x16x512x32_o0_14_0_0_S2x1x512x32⟩,
        ⟨S2x1x512x32, extractStridedSlice S2x1x512x32 ![0, 13, 0, 0] v2 slices_S2x16x512x32_o0_13_0_0_S2x1x512x32⟩,
        ⟨S2x1x512x32, extractStridedSlice S2x1x512x32 ![0, 12, 0, 0] v2 slices_S2x16x512x32_o0_12_0_0_S2x1x512x32⟩,
        ⟨S2x1x512x32, extractStridedSlice S2x1x512x32 ![0, 11, 0, 0] v2 slices_S2x16x512x32_o0_11_0_0_S2x1x512x32⟩,
        ⟨S2x1x512x32, extractStridedSlice S2x1x512x32 ![0, 10, 0, 0] v2 slices_S2x16x512x32_o0_10_0_0_S2x1x512x32⟩,
        ⟨S2x1x512x32, extractStridedSlice S2x1x512x32 ![0, 9, 0, 0] v2 slices_S2x16x512x32_o0_9_0_0_S2x1x512x32⟩,
        ⟨S2x1x512x32, extractStridedSlice S2x1x512x32 ![0, 8, 0, 0] v2 slices_S2x16x512x32_o0_8_0_0_S2x1x512x32⟩,
        ⟨S2x1x512x32, extractStridedSlice S2x1x512x32 ![0, 7, 0, 0] v2 slices_S2x16x512x32_o0_7_0_0_S2x1x512x32⟩,
        ⟨S2x1x512x32, extractStridedSlice S2x1x512x32 ![0, 6, 0, 0] v2 slices_S2x16x512x32_o0_6_0_0_S2x1x512x32⟩,
        ⟨S2x1x512x32, extractStridedSlice S2x1x512x32 ![0, 5, 0, 0] v2 slices_S2x16x512x32_o0_5_0_0_S2x1x512x32⟩,
        ⟨S2x1x512x32, extractStridedSlice S2x1x512x32 ![0, 4, 0, 0] v2 slices_S2x16x512x32_o0_4_0_0_S2x1x512x32⟩,
        ⟨S2x1x512x32, extractStridedSlice S2x1x512x32 ![0, 3, 0, 0] v2 slices_S2x16x512x32_o0_3_0_0_S2x1x512x32⟩,
        ⟨S2x1x512x32, extractStridedSlice S2x1x512x32 ![0, 2, 0, 0] v2 slices_S2x16x512x32_o0_2_0_0_S2x1x512x32⟩,
        ⟨S2x1x512x32, extractStridedSlice S2x1x512x32 ![0, 1, 0, 0] v2 slices_S2x16x512x32_o0_1_0_0_S2x1x512x32⟩,
        ⟨S2x1x512x32, extractStridedSlice S2x1x512x32 ![0, 0, 0, 0] v2 slices_S2x16x512x32_o0_0_0_0_S2x1x512x32⟩]
      concatenates_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x16x512x32_d1 z = v2 (revRow z) := by
  refine (concatenate_ofFn_unit_apply (α := EReal) (t := S2x16x512x32) (s₁ := S2x1x512x32) (1 : Fin 4) (N := 16)
    (fun n => extractStridedSlice S2x1x512x32 ![0, 15 - n.val, 0, 0] v2 (slicesRow n))
    concatenates_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x1x512x32_S2x16x512x32_d1 rfl rfl z ⟨(z 1).val, (z 1).isLt⟩ rfl (oneRow z) ?_).trans ?_
  · intro b hb
    match b with
    | ⟨0, _⟩ => rfl
    | ⟨1, _⟩ => exact absurd rfl hb
    | ⟨2, _⟩ => rfl
    | ⟨3, _⟩ => rfl
  · refine extractStridedSlice_apply _ v2 _ _ (revRow z) ?_
    intro a
    match a with
    | ⟨0, _⟩ => show (z 0).val = 0 + (z 0).val; omega
    | ⟨1, _⟩ => show 15 - (z 1).val = 15 - (z 1).val + 0; omega
    | ⟨2, _⟩ => show (z 2).val = 0 + (z 2).val; omega
    | ⟨3, _⟩ => show (z 3).val = 0 + (z 3).val; omega

/-- A sixteen-column strip's index with its column reversed: `15 - w`. -/
def revCol (z : S2x32x16x32.Idx) : S2x32x16x32.Idx := fun a => match a with
  | ⟨0, _⟩ => z 0
  | ⟨1, _⟩ => z 1
  | ⟨2, _⟩ => ⟨15 - (z 2).val, by show 15 - (z 2).val < 16; omega⟩
  | ⟨3, _⟩ => z 3

/-- Column `15 - n` of a sixteen-column strip is a one-column slice. -/
theorem slicesCol : ∀ n : Fin 16, S2x32x16x32.Slices ![0, 0, 15 - n.val, 0] S2x32x1x32 := by decide

/-- A strip's index with its column dropped to the one column of a one-column slice. -/
def oneCol (z : S2x32x16x32.Idx) : S2x32x1x32.Idx := fun a => match a with
  | ⟨0, _⟩ => ⟨(z 0).val, (z 0).isLt⟩
  | ⟨1, _⟩ => ⟨(z 1).val, (z 1).isLt⟩
  | ⟨2, _⟩ => ⟨0, by show 0 < 1; omega⟩
  | ⟨3, _⟩ => ⟨(z 3).val, (z 3).isLt⟩

/-- The stack of a strip's sixteen one-column slices in reversed order is the strip with its columns reversed. -/
theorem revCols_apply (u : S2x32x16x32.Idx → EReal) (z : S2x32x16x32.Idx) :
    concatenate S2x32x16x32 2
      [⟨S2x32x1x32, extractStridedSlice S2x32x1x32 ![0, 0, 15, 0] u slices_S2x32x16x32_o0_0_15_0_S2x32x1x32⟩,
        ⟨S2x32x1x32, extractStridedSlice S2x32x1x32 ![0, 0, 14, 0] u slices_S2x32x16x32_o0_0_14_0_S2x32x1x32⟩,
        ⟨S2x32x1x32, extractStridedSlice S2x32x1x32 ![0, 0, 13, 0] u slices_S2x32x16x32_o0_0_13_0_S2x32x1x32⟩,
        ⟨S2x32x1x32, extractStridedSlice S2x32x1x32 ![0, 0, 12, 0] u slices_S2x32x16x32_o0_0_12_0_S2x32x1x32⟩,
        ⟨S2x32x1x32, extractStridedSlice S2x32x1x32 ![0, 0, 11, 0] u slices_S2x32x16x32_o0_0_11_0_S2x32x1x32⟩,
        ⟨S2x32x1x32, extractStridedSlice S2x32x1x32 ![0, 0, 10, 0] u slices_S2x32x16x32_o0_0_10_0_S2x32x1x32⟩,
        ⟨S2x32x1x32, extractStridedSlice S2x32x1x32 ![0, 0, 9, 0] u slices_S2x32x16x32_o0_0_9_0_S2x32x1x32⟩,
        ⟨S2x32x1x32, extractStridedSlice S2x32x1x32 ![0, 0, 8, 0] u slices_S2x32x16x32_o0_0_8_0_S2x32x1x32⟩,
        ⟨S2x32x1x32, extractStridedSlice S2x32x1x32 ![0, 0, 7, 0] u slices_S2x32x16x32_o0_0_7_0_S2x32x1x32⟩,
        ⟨S2x32x1x32, extractStridedSlice S2x32x1x32 ![0, 0, 6, 0] u slices_S2x32x16x32_o0_0_6_0_S2x32x1x32⟩,
        ⟨S2x32x1x32, extractStridedSlice S2x32x1x32 ![0, 0, 5, 0] u slices_S2x32x16x32_o0_0_5_0_S2x32x1x32⟩,
        ⟨S2x32x1x32, extractStridedSlice S2x32x1x32 ![0, 0, 4, 0] u slices_S2x32x16x32_o0_0_4_0_S2x32x1x32⟩,
        ⟨S2x32x1x32, extractStridedSlice S2x32x1x32 ![0, 0, 3, 0] u slices_S2x32x16x32_o0_0_3_0_S2x32x1x32⟩,
        ⟨S2x32x1x32, extractStridedSlice S2x32x1x32 ![0, 0, 2, 0] u slices_S2x32x16x32_o0_0_2_0_S2x32x1x32⟩,
        ⟨S2x32x1x32, extractStridedSlice S2x32x1x32 ![0, 0, 1, 0] u slices_S2x32x16x32_o0_0_1_0_S2x32x1x32⟩,
        ⟨S2x32x1x32, extractStridedSlice S2x32x1x32 ![0, 0, 0, 0] u slices_S2x32x16x32_o0_0_0_0_S2x32x1x32⟩]
      concatenates_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x16x32_d2 z = u (revCol z) := by
  refine (concatenate_ofFn_unit_apply (α := EReal) (t := S2x32x16x32) (s₁ := S2x32x1x32) (2 : Fin 4) (N := 16)
    (fun n => extractStridedSlice S2x32x1x32 ![0, 0, 15 - n.val, 0] u (slicesCol n))
    concatenates_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x1x32_S2x32x16x32_d2 rfl rfl z ⟨(z 2).val, (z 2).isLt⟩ rfl (oneCol z) ?_).trans ?_
  · intro b hb
    match b with
    | ⟨0, _⟩ => rfl
    | ⟨1, _⟩ => rfl
    | ⟨2, _⟩ => exact absurd rfl hb
    | ⟨3, _⟩ => rfl
  · refine extractStridedSlice_apply _ u _ _ (revCol z) ?_
    intro a
    match a with
    | ⟨0, _⟩ => show (z 0).val = 0 + (z 0).val; omega
    | ⟨1, _⟩ => show (z 1).val = 0 + (z 1).val; omega
    | ⟨2, _⟩ => show 15 - (z 2).val = 15 - (z 2).val + 0; omega
    | ⟨3, _⟩ => show (z 3).val = 0 + (z 3).val; omega

/-- The body's test `hi == 0` on the H-tile coordinate (a 32-bit compare of a number below 16). -/
theorem first_iff (i : grid0.Coords) : Scalar.cmpi .eq (BitVec.ofNat 32 (i 1).val) 0#32 = 1 ↔ (i 1).val = 0 := by
  have hlt : (i 1).val < 16 := (i 1).isLt
  show IntOp.cmpi .eq (BitVec.ofNat 32 (i 1).val) 0#32 = 1#1 ↔ _
  rw [StableHlo.Predicate.cmpi_eq_iff]
  constructor
  · intro h
    have := congrArg BitVec.toNat h
    simp only [BitVec.toNat_ofNat, BitVec.toNat_zero] at this
    omega
  · intro h; rw [h]

/-! ## The H-folded block (`k0_pay1`) at an index -/

/-- The upper half's index of a block index in rows [0, 16). -/
def loRows (y : S2x32x512x32.Idx) (h : (y 1).val < 16) : S2x16x512x32.Idx := fun a => match a with
  | ⟨0, _⟩ => ⟨(y 0).val, (y 0).isLt⟩
  | ⟨1, _⟩ => ⟨(y 1).val, h⟩
  | ⟨2, _⟩ => ⟨(y 2).val, (y 2).isLt⟩
  | ⟨3, _⟩ => ⟨(y 3).val, (y 3).isLt⟩

/-- The lower half's index of a block index in rows [16, 32). -/
def hiRows (y : S2x32x512x32.Idx) (h : 16 ≤ (y 1).val) : S2x16x512x32.Idx := fun a => match a with
  | ⟨0, _⟩ => ⟨(y 0).val, (y 0).isLt⟩
  | ⟨1, _⟩ => ⟨(y 1).val - 16, by have h32 : (y 1).val < 32 := (y 1).isLt; show (y 1).val - 16 < 16; omega⟩
  | ⟨2, _⟩ => ⟨(y 2).val, (y 2).isLt⟩
  | ⟨3, _⟩ => ⟨(y 3).val, (y 3).isLt⟩

theorem pay1_apply (i : grid0.Coords) (v0 : S2x32x512x32.Idx → EReal) (y : S2x32x512x32.Idx) :
    k0_pay1 (F := Ideal) i v0 y = blkH ((i 1).val = 0) v0 y := by
  unfold k0_pay1 blkH
  dsimp only
  by_cases hy : 16 ≤ (y 1).val
  · rw [if_pos hy]
    refine (concatenate_pair_apply_right (t := S2x32x512x32) (s₁ := S2x16x512x32) (s₂ := S2x16x512x32) (1 : Fin 4) _ _
      concatenates_S2x16x512x32_S2x16x512x32_S2x32x512x32_d1 y rfl rfl
      (hiRows y hy) ?_ ?_).trans ?_
    · intro b hb
      match b with
      | ⟨0, _⟩ => rfl
      | ⟨1, _⟩ => exact absurd rfl hb
      | ⟨2, _⟩ => rfl
      | ⟨3, _⟩ => rfl
    · show (y 1).val - 16 + 16 = (y 1).val; omega
    · simp only [addf, Ideal.addf_def]
      congr 1
      · refine extractStridedSlice_apply ![0, 16, 0, 0] v0 slices_S2x32x512x32_o0_16_0_0_S2x16x512x32 _ y ?_
        intro a
        match a with
        | ⟨0, _⟩ => show (y 0).val = 0 + (y 0).val; omega
        | ⟨1, _⟩ => show (y 1).val = 16 + ((y 1).val - 16); omega
        | ⟨2, _⟩ => show (y 2).val = 0 + (y 2).val; omega
        | ⟨3, _⟩ => show (y 3).val = 0 + (y 3).val; omega
      · unfold Scalar.select
        by_cases h0 : (i 1).val = 0
        · rw [if_pos h0, if_pos ((first_iff i).mpr h0)]
          refine (revRows_apply _ (hiRows y hy)).trans ?_
          refine extractStridedSlice_apply ![0, 0, 0, 0] v0 slices_S2x32x512x32_o0_0_0_0_S2x16x512x32 _ (bmirH y) ?_
          intro a
          have h32 : (y 1).val < 32 := (y 1).isLt
          match a with
          | ⟨0, _⟩ => show (y 0).val = 0 + (y 0).val; omega
          | ⟨1, _⟩ => show 31 - (y 1).val = 0 + (15 - ((y 1).val - 16)); omega
          | ⟨2, _⟩ => show (y 2).val = 0 + (y 2).val; omega
          | ⟨3, _⟩ => show (y 3).val = 0 + (y 3).val; omega
        · rw [if_neg h0, if_neg (mt (first_iff i).mp h0)]
          show Ideal.ofBits .f32 0x00000000#32 = 0
          exact Ideal.ofBits_zero_f32
  · rw [if_neg hy]
    refine (concatenate_pair_apply_left (t := S2x32x512x32) (s₁ := S2x16x512x32) (s₂ := S2x16x512x32) (1 : Fin 4) _ _
      concatenates_S2x16x512x32_S2x16x512x32_S2x32x512x32_d1 y rfl
      (loRows y (Nat.lt_of_not_le hy)) ?_).trans ?_
    · intro b
      match b with
      | ⟨0, _⟩ => rfl
      | ⟨1, _⟩ => rfl
      | ⟨2, _⟩ => rfl
      | ⟨3, _⟩ => rfl
    · refine (extractStridedSlice_apply ![0, 0, 0, 0] v0 slices_S2x32x512x32_o0_0_0_0_S2x16x512x32 _ y ?_)
      intro a
      match a with
      | ⟨0, _⟩ => show (y 0).val = 0 + (y 0).val; omega
      | ⟨1, _⟩ => show (y 1).val = 0 + (y 1).val; omega
      | ⟨2, _⟩ => show (y 2).val = 0 + (y 2).val; omega
      | ⟨3, _⟩ => show (y 3).val = 0 + (y 3).val; omega

/-! ## The three stored strips are the block's fold -/

/-- A column strip of the H-folded block, read at a strip index: the H-folded block at the strip's place in the block. -/
theorem strip_apply (i : grid0.Coords) (v0 : S2x32x512x32.Idx → EReal) (T : Shape) (c : Nat)
    (hs : S2x32x512x32.Slices ![0, 0, c, 0] T) (x : T.Idx) (k : S2x32x512x32.Idx)
    (hk : ∀ a : Fin 4, (k a).val = (![0, 0, c, 0] : Fin 4 → Nat) a + (x (a.cast hs.1.symm)).val) :
    extractStridedSlice T ![0, 0, c, 0] (k0_pay1 (F := Ideal) i v0) hs x = blkH ((i 1).val = 0) v0 k :=
  (extractStridedSlice_apply ![0, 0, c, 0] (k0_pay1 (F := Ideal) i v0) hs x k hk).trans (pay1_apply i v0 k)

/-- The strip of columns [0, 16): its place in the block is below column 16, where the W-fold keeps the block. -/
theorem piece1 (i : grid0.Coords) (v0 : S2x32x512x32.Idx → EReal) (x : S2x32x16x32.Idx) :
    k0_pay2 (F := Ideal) i v0 x
      = blkFold ((i 1).val = 0) v0 ((Rect.unit (s := S2x32x512x32) ![0, 0, 0, 0] S2x32x16x32.size inb_S2x32x512x32_S2x32x16x32_0_0_0_0).emb x) := by
  unfold k0_pay2 blkFold blkW
  dsimp only
  have h16 : (x 2).val < 16 := (x 2).isLt
  rw [if_neg (by
    show ¬(16 ≤ 0 + 1 * (x 2).val ∧ 0 + 1 * (x 2).val < 32); omega)]
  refine strip_apply i v0 S2x32x16x32 0 slices_S2x32x512x32_o0_0_0_0_S2x32x16x32 x _ ?_
  intro a
  match a with
  | ⟨0, _⟩ => show 0 + 1 * (x 0).val = 0 + (x 0).val; omega
  | ⟨1, _⟩ => show 0 + 1 * (x 1).val = 0 + (x 1).val; omega
  | ⟨2, _⟩ => show 0 + 1 * (x 2).val = 0 + (x 2).val; omega
  | ⟨3, _⟩ => show 0 + 1 * (x 3).val = 0 + (x 3).val; omega

/-- The strip of columns [32, 512): past column 32 the W-fold keeps the block. -/
theorem piece3 (i : grid0.Coords) (v0 : S2x32x512x32.Idx → EReal) (x : S2x32x480x32.Idx) :
    k0_pay3 (F := Ideal) i v0 x
      = blkFold ((i 1).val = 0) v0 ((Rect.unit (s := S2x32x512x32) ![0, 0, 32, 0] S2x32x480x32.size inb_S2x32x512x32_S2x32x480x32_0_0_32_0).emb x) := by
  unfold k0_pay3 blkFold blkW
  dsimp only
  rw [if_neg (by
    show ¬(16 ≤ 32 + 1 * (x 2).val ∧ 32 + 1 * (x 2).val < 32); omega)]
  refine strip_apply i v0 S2x32x480x32 32 slices_S2x32x512x32_o0_0_32_0_S2x32x480x32 x _ ?_
  intro a
  match a with
  | ⟨0, _⟩ => show 0 + 1 * (x 0).val = 0 + (x 0).val; omega
  | ⟨1, _⟩ => show 0 + 1 * (x 1).val = 0 + (x 1).val; omega
  | ⟨2, _⟩ => show 32 + 1 * (x 2).val = 32 + (x 2).val; omega
  | ⟨3, _⟩ => show 0 + 1 * (x 3).val = 0 + (x 3).val; omega

/-- The strip of columns [16, 32): the H-folded block there plus its mirrored column (the reversed stack of the first
    strip's sixteen columns). -/
theorem piece2 (i : grid0.Coords) (v0 : S2x32x512x32.Idx → EReal) (x : S2x32x16x32.Idx) :
    k0_pay4 (F := Ideal) i v0 x
      = blkFold ((i 1).val = 0) v0 ((Rect.unit (s := S2x32x512x32) ![0, 0, 16, 0] S2x32x16x32.size inb_S2x32x512x32_S2x32x16x32_0_0_16_0).emb x) := by
  unfold k0_pay4 blkFold blkW
  dsimp only
  have h16 : (x 2).val < 16 := (x 2).isLt
  rw [if_pos (by
    show 16 ≤ 16 + 1 * (x 2).val ∧ 16 + 1 * (x 2).val < 32; omega)]
  simp only [addf, Ideal.addf_def]
  congr 1
  · refine strip_apply i v0 S2x32x16x32 16 slices_S2x32x512x32_o0_0_16_0_S2x32x16x32 x _ ?_
    intro a
    match a with
    | ⟨0, _⟩ => show 0 + 1 * (x 0).val = 0 + (x 0).val; omega
    | ⟨1, _⟩ => show 0 + 1 * (x 1).val = 0 + (x 1).val; omega
    | ⟨2, _⟩ => show 16 + 1 * (x 2).val = 16 + (x 2).val; omega
    | ⟨3, _⟩ => show 0 + 1 * (x 3).val = 0 + (x 3).val; omega
  · refine (revCols_apply _ x).trans ?_
    unfold k0_pay2
    refine strip_apply i v0 S2x32x16x32 0 slices_S2x32x512x32_o0_0_0_0_S2x32x16x32 (revCol x) _ ?_
    intro a
    match a with
    | ⟨0, _⟩ => show 0 + 1 * (x 0).val = 0 + (x 0).val; omega
    | ⟨1, _⟩ => show 0 + 1 * (x 1).val = 0 + (x 1).val; omega
    | ⟨2, _⟩ => show 31 - (16 + 1 * (x 2).val) = 0 + (15 - (x 2).val); omega
    | ⟨3, _⟩ => show 0 + 1 * (x 3).val = 0 + (x 3).val; omega

/-! ## The block the body leaves -/

theorem hz4 : (![0, 0, 0, 0] : Fin 4 → Nat) = fun _ => 0 := funext fun a => by fin_cases a <;> rfl

/-- **What the body leaves in the output's staging buffer** at grid point `i`, from the input block `x0`: its fold, the
    H-fold active on the first H tile only. The three strips the body stores cover the block, and each is the fold
    read at its place. -/
theorem out_eq (c : Dev nD) (i : grid0.Coords) (a2 : Memref sig .tc .vmem S2x32x512x32 .f32) (h2 : a2.IsWhole)
    (a3 : Memref sig .tc .vmem S2x32x512x32 .f32) (h3 : a3.IsWhole) (x0 : Vec Ideal S2x32x512x32 .f32) :
    out0_A_1 (F := Ideal) c i a2 h2 a3 h3 x0 = blkFold ((i 1).val = 0) x0 := by
  funext y
  have hc := cover0_A_1 (F := Ideal) c i a2 h2 a3 h3 x0 y
  unfold out0_A_1
  rw [View.read_writes_eq_canon _ _ _ (cover0_A_1 c i a2 h2 a3 h3 x0)]
  refine View.canon_apply_of_pieces (blkFold ((i 1).val = 0) x0) _ ?_ y hc
  unfold kernelRun0_A
  dsimp only
  sl_unfold_words
  simp only [View.readAt_eq_ld, h2.read_unread, View.ld_unit_zero (S := S2x32x512x32) hz4]
  intro p hp
  simp only [List.mem_cons, List.not_mem_nil, or_false] at hp
  rcases hp with rfl | rfl | rfl
  · exact piece3 i x0
  · exact piece2 i x0
  · exact piece1 i x0

end Cert.KernelIdeal.BlockValue

end
-- ==== Proof.ArrayValue.lean ====
/-
  From blocks to the array: the kernel's result array is the specification `fold2d` of its argument.

  Grid point (bi, hi) reads and writes block (bi, hi, 0, 0) of shape (2, 32, 512, 32): element `y` of the block sits in
  the array at (2·bi + y₀, 32·hi + y₁, y₂, y₃). The W-fold only moves a column inside its own row, and the block holds
  every column, so the block's W-fold is the array's. The H-fold reads row `31 - h` for `h` in [16, 32): both rows lie in
  H tile 0, whose blocks hold rows [0, 32); on every other tile the array's H-fold keeps the row and the block adds the
  constant zero, which an extended real absorbs (`x + 0 = x`, no finiteness needed). So what each point writes back is
  the block of `fold2d x`, and the 4 × 16 blocks tile the array.
-/
import proofs.«144828_j63909113364644_1_alg».proof.Proof.Gen.KernelIdeal.Value
import proofs.«144828_j63909113364644_1_alg».proof.Proof.BlockValue
import proofs.«144828_j63909113364644_1_alg».proof.Proof.FoldSpec

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Cert.FoldSpec Cert.KernelIdeal.BlockValue

/-! ## A block's fold is the array's fold, read at the block's place -/

/-- Where element `y` of the block of grid point `p = (bi, hi)` sits in the array. -/
def glob (p : grid0.Coords) (y : S2x32x512x32.Idx) : S8x512x512x32.Idx := fun a => match a with
  | ⟨0, _⟩ => ⟨2 * (p 0).val + (y 0).val, by
      have h1 : (y 0).val < 2 := (y 0).isLt; have h2 : (p 0).val < 4 := (p 0).isLt
      show 2 * (p 0).val + (y 0).val < 8; omega⟩
  | ⟨1, _⟩ => ⟨32 * (p 1).val + (y 1).val, by
      have h1 : (y 1).val < 32 := (y 1).isLt; have h2 : (p 1).val < 16 := (p 1).isLt
      show 32 * (p 1).val + (y 1).val < 512; omega⟩
  | ⟨2, _⟩ => ⟨(y 2).val, (y 2).isLt⟩
  | ⟨3, _⟩ => ⟨(y 3).val, (y 3).isLt⟩

/-- The column mirror commutes with the placement: a block holds every column. -/
theorem mirW_glob (p : grid0.Coords) (y : S2x32x512x32.Idx) : mirW (glob p y) = glob p (bmirW y) := by
  funext a
  apply Fin.ext
  match a with
  | ⟨0, _⟩ => rfl
  | ⟨1, _⟩ => rfl
  | ⟨2, _⟩ => rfl
  | ⟨3, _⟩ => rfl

/-- On H tile 0 the row mirror commutes with the placement: rows [0, 32) are the tile's. -/
theorem mirH_glob (p : grid0.Coords) (h0 : (p 1).val = 0) (y : S2x32x512x32.Idx) :
    mirH (glob p y) = glob p (bmirH y) := by
  funext a
  apply Fin.ext
  match a with
  | ⟨0, _⟩ => rfl
  | ⟨1, _⟩ =>
    have h32 : (y 1).val < 32 := (y 1).isLt
    show 31 - (32 * (p 1).val + (y 1).val) = 32 * (p 1).val + (31 - (y 1).val)
    omega
  | ⟨2, _⟩ => rfl
  | ⟨3, _⟩ => rfl

/-- The block's H-fold is the array's, at the block's place. -/
theorem blkH_glob (x : S8x512x512x32.Idx → EReal) (p : grid0.Coords) (y : S2x32x512x32.Idx) :
    blkH ((p 1).val = 0) (fun y' => x (glob p y')) y = foldH x (glob p y) := by
  have h32 : (y 1).val < 32 := (y 1).isLt
  have e1 : ((glob p y) 1).val = 32 * (p 1).val + (y 1).val := rfl
  show (if 16 ≤ (y 1).val then x (glob p y) + (if (p 1).val = 0 then x (glob p (bmirH y)) else 0) else x (glob p y))
    = if 16 ≤ ((glob p y) 1).val ∧ ((glob p y) 1).val < 32 then x (glob p y) + x (mirH (glob p y)) else x (glob p y)
  rw [e1]
  by_cases h0 : (p 1).val = 0
  · rw [mirH_glob p h0]
    by_cases hy : 16 ≤ (y 1).val
    · rw [if_pos hy, if_pos h0,
        if_pos (show 16 ≤ 32 * (p 1).val + (y 1).val ∧ 32 * (p 1).val + (y 1).val < 32 by omega)]
    · rw [if_neg hy, if_neg (show ¬(16 ≤ 32 * (p 1).val + (y 1).val ∧ 32 * (p 1).val + (y 1).val < 32) by omega)]
  · rw [if_neg (show ¬(16 ≤ 32 * (p 1).val + (y 1).val ∧ 32 * (p 1).val + (y 1).val < 32) by omega)]
    by_cases hy : 16 ≤ (y 1).val
    · rw [if_pos hy, if_neg h0, add_zero]
    · rw [if_neg hy]

/-- The block's fold is the array's, at the block's place. -/
theorem blkFold_glob (x : S8x512x512x32.Idx → EReal) (p : grid0.Coords) (y : S2x32x512x32.Idx) :
    blkFold ((p 1).val = 0) (fun y' => x (glob p y')) y = fold2d x (glob p y) := by
  show (if 16 ≤ (y 2).val ∧ (y 2).val < 32
      then blkH ((p 1).val = 0) (fun y' => x (glob p y')) y + blkH ((p 1).val = 0) (fun y' => x (glob p y')) (bmirW y)
      else blkH ((p 1).val = 0) (fun y' => x (glob p y')) y)
    = if 16 ≤ ((glob p y) 2).val ∧ ((glob p y) 2).val < 32 then foldH x (glob p y) + foldH x (mirW (glob p y))
      else foldH x (glob p y)
  rw [show ((glob p y) 2).val = (y 2).val from rfl, mirW_glob, blkH_glob, blkH_glob]

/-! ## The grid's index maps -/

/-- Both windows' block index at point `t` is (bi, hi, 0, 0), the point's own coordinates. -/
theorem idx_facts : ∀ t : Fin cfg0.N,
    win0_0.index t (0 : Fin 4) = (grid0.coords t 0).val ∧ win0_0.index t (1 : Fin 4) = (grid0.coords t 1).val
    ∧ win0_0.index t (2 : Fin 4) = 0 ∧ win0_0.index t (3 : Fin 4) = 0
    ∧ win0_1.index t (0 : Fin 4) = (grid0.coords t 0).val ∧ win0_1.index t (1 : Fin 4) = (grid0.coords t 1).val
    ∧ win0_1.index t (2 : Fin 4) = 0 ∧ win0_1.index t (3 : Fin 4) = 0 :=
  (by decide +kernel : ∀ t : Fin grid0.N, _)

/-- Every pair of coordinates is some point's. -/
theorem idx_onto : ∀ (q0 : Fin 4) (q1 : Fin 16), ∃ t : Fin cfg0.N,
    (grid0.coords t 0).val = q0.val ∧ (grid0.coords t 1).val = q1.val :=
  (by decide +kernel : ∀ (q0 : Fin 4) (q1 : Fin 16), ∃ t : Fin grid0.N,
    (grid0.coords t 0).val = q0.val ∧ (grid0.coords t 1).val = q1.val)

variable (m : (ℓ : Loc nD τ sig) → Buf (Elt Ideal) ℓ) (ρ : Dev nD → PrngReg)

/-- The argument array, as launched. -/
abbrev xarr (c : Dev nD) : S8x512x512x32.Idx → EReal := m ((c : Thread nD τ).loc main_arg0)

/-- The input block at point `t` is the argument read at the block's place. -/
theorem iblk_eq (c : Dev nD) (t : Fin cfg0.N) :
    (iblk m c 0 t : S2x32x512x32.Idx → EReal) = fun y => xarr m c (glob (grid0.coords t) y) := by
  obtain ⟨e0, e1, e2, e3, -, -, -, -⟩ := idx_facts t
  funext y
  show xarr m c (((cfg0.win 0).blk t).view.emb y) = _
  congr 1
  funext a
  apply Fin.ext
  match a with
  | ⟨0, _⟩ => show win0_0.index t (0 : Fin 4) * 2 + 1 * (y 0).val = 2 * (grid0.coords t 0).val + (y 0).val; omega
  | ⟨1, _⟩ => show win0_0.index t (1 : Fin 4) * 32 + 1 * (y 1).val = 32 * (grid0.coords t 1).val + (y 1).val; omega
  | ⟨2, _⟩ => show win0_0.index t (2 : Fin 4) * 512 + 1 * (y 2).val = (y 2).val; omega
  | ⟨3, _⟩ => show win0_0.index t (3 : Fin 4) * 32 + 1 * (y 3).val = (y 3).val; omega

/-- **What point `t` writes back is block `t` of the specification.** -/
theorem flushed_eq (c : Dev nD) (t : Fin cfg0.N) :
    (dats m 0 c).flushed 1 t = ((cfg0.win 1).blk t).view.read (Elt Ideal) (fold2d (xarr m c)) := by
  rw [Cert.KernelIdeal.Value.flushed1_A, out_eq, iblk_eq]
  obtain ⟨-, -, -, -, f0, f1, f2, f3⟩ := idx_facts t
  funext y
  show blkFold ((grid0.coords t 1).val = 0) (fun y' => xarr m c (glob (grid0.coords t) y')) y
    = fold2d (xarr m c) (((cfg0.win 1).blk t).view.emb y)
  refine (blkFold_glob (xarr m c) (grid0.coords t) y).trans ?_
  congr 1
  funext a
  apply Fin.ext
  match a with
  | ⟨0, _⟩ => show 2 * (grid0.coords t 0).val + (y 0).val = win0_1.index t (0 : Fin 4) * 2 + 1 * (y 0).val; omega
  | ⟨1, _⟩ => show 32 * (grid0.coords t 1).val + (y 1).val = win0_1.index t (1 : Fin 4) * 32 + 1 * (y 1).val; omega
  | ⟨2, _⟩ => show (y 2).val = win0_1.index t (2 : Fin 4) * 512 + 1 * (y 2).val; omega
  | ⟨3, _⟩ => show (y 3).val = win0_1.index t (3 : Fin 4) * 32 + 1 * (y 3).val; omega

/-- An array index is in point `t`'s block iff each coordinate is in the block's range on its axis. -/
theorem mem_blk (t : Fin cfg0.N) (i : S8x512x512x32.Idx) :
    i ∈ ((cfg0.win 1).blk t).view.set ↔ ∀ a : Fin 4, win0_1.index t a * S2x32x512x32.size a ≤ (i a).val
      ∧ (i a).val < win0_1.index t a * S2x32x512x32.size a + S2x32x512x32.size a := by
  show i ∈ ((View.whole main_v0).slice (win0_1.rect t)).set ↔ _
  rw [View.set_slice_whole, Rect.mem_set_unit]
  exact Iff.rfl

/-- The 4 × 16 blocks tile the array: index `i` is in the block of the point (i₀ / 2, i₁ / 32). -/
theorem cover (i : S8x512x512x32.Idx) :
    ∃ t : Fin cfg0.N, (cfg0.win 1).flush t = true ∧ i ∈ ((cfg0.win 1).blk t).view.set := by
  have hi0 : (i 0).val < 8 := (i 0).isLt
  have hi1 : (i 1).val < 512 := (i 1).isLt
  have hi2 : (i 2).val < 512 := (i 2).isLt
  have hi3 : (i 3).val < 32 := (i 3).isLt
  obtain ⟨t, ht0, ht1⟩ := idx_onto ⟨(i 0).val / 2, by omega⟩ ⟨(i 1).val / 32, by omega⟩
  have q0 : (grid0.coords t 0).val = (i 0).val / 2 := ht0
  have q1 : (grid0.coords t 1).val = (i 1).val / 32 := ht1
  obtain ⟨-, -, -, -, f0, f1, f2, f3⟩ := idx_facts t
  refine ⟨t, flush0_1 t, ?_⟩
  rw [mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 32 ≤ (i 1).val ∧ (i 1).val < win0_1.index t (1 : Fin 4) * 32 + 32; omega
  | ⟨2, _⟩ => show win0_1.index t (2 : Fin 4) * 512 ≤ (i 2).val ∧ (i 2).val < win0_1.index t (2 : Fin 4) * 512 + 512; omega
  | ⟨3, _⟩ => show win0_1.index t (3 : Fin 4) * 32 ≤ (i 3).val ∧ (i 3).val < win0_1.index t (3 : Fin 4) * 32 + 32; omega

/-- **The result array after the run is the specification of the argument.** -/
theorem final (c : Dev nD) : (dats m 0 c).arrAt 1 cfg0.N = fold2d (xarr m c) :=
  (dats m 0 c).arrAt_eq_of_cover 1 (fold2d (xarr m c)) (fun t _ => flushed_eq m c t) cover

/-- The kernel's run, read: the result array at the specification, the argument unchanged. -/
theorem run : θ_run defs (onTc (τ := τ) (main (F := Ideal))) ⟨m, fun _ => 0, ρ⟩ fun r => ∀ c : Dev nD,
      r.2.mem ((c : Thread nD τ).loc main_v0) = fold2d (xarr m c)
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.ArrayValue

end
-- ==== Proof.lean ====
/-
  The certificate of the 2-D border fold (strip width 16) over x : f32[8, 512, 512, 32].

  Both programs compute, over the extended reals, `fold2d x = foldW (foldH x)`: rows [16, 32) receive the mirrored
  rows `31 - h` of [0, 16), then columns [16, 32) receive the mirrored columns `31 - w` of [0, 16) of that result.
    The reference writes each fold as a scatter-add of one window (the reversed strip, start index 16); every update
  element lands inside the array on its own element, so each scatter is the fold (`RefValue.result_eq`).
    The kernel tiles the array into 4 × 16 blocks of (2, 32, 512, 32), folds each block by itself — the H-fold only on
  H tile 0, adding the constant zero elsewhere, which `x + 0 = x` absorbs — and the blocks tile the array
  (`ArrayValue.run`). No step distributes or cancels, so the precondition is not used.
  The ideal pass rewrote nothing, so `preserves` is trivial; the three frames are the generated frame runs and the
  reference's generated run.
-/
import proofs.«144828_j63909113364644_1_alg».proof.Defs
import proofs.«144828_j63909113364644_1_alg».proof.Proof.Gen.Kernel
import proofs.«144828_j63909113364644_1_alg».proof.Proof.Gen.Kernel.Skeleton
import proofs.«144828_j63909113364644_1_alg».proof.Proof.Gen.Kernel.Launch
import proofs.«144828_j63909113364644_1_alg».proof.Proof.Gen.Kernel.Points
import proofs.«144828_j63909113364644_1_alg».proof.Proof.Gen.Kernel.Frame
import proofs.«144828_j63909113364644_1_alg».proof.Proof.Gen.KernelIdeal
import proofs.«144828_j63909113364644_1_alg».proof.Proof.Gen.KernelIdeal.Skeleton
import proofs.«144828_j63909113364644_1_alg».proof.Proof.Gen.KernelIdeal.Launch
import proofs.«144828_j63909113364644_1_alg».proof.Proof.Gen.KernelIdeal.Points
import proofs.«144828_j63909113364644_1_alg».proof.Proof.Gen.KernelIdeal.Frame
import proofs.«144828_j63909113364644_1_alg».proof.Proof.Gen.ReferenceIdeal
import proofs.«144828_j63909113364644_1_alg».proof.Proof.Gen.Pre_finite_inputs
import proofs.«144828_j63909113364644_1_alg».proof.Proof.Gen.KernelIdeal.Value
import proofs.«144828_j63909113364644_1_alg».proof.Proof.Gen.ReferenceIdeal.Run
import proofs.«144828_j63909113364644_1_alg».proof.Proof.Gen.ReferenceIdeal.Read
import proofs.«144828_j63909113364644_1_alg».proof.Proof.RefValue
import proofs.«144828_j63909113364644_1_alg».proof.Proof.ArrayValue
import Idealize.ShloMosaic.Adequacy
import Idealize.ShloMosaic.Init

noncomputable section

namespace Cert.Proof

open Idealize.ShloMosaic Idealize.SL.Sem

/-- The word-level kernel runs and keeps its argument: the generated frame. -/
theorem frame_k : Cert.frame_Kernel := fun m ρ _ => Cert.Kernel.Gen.frame m ρ

/-- The idealized kernel runs and keeps its argument: the generated frame. -/
theorem frame_ki : Cert.frame_KernelIdeal := fun m ρ _ => Cert.KernelIdeal.Gen.frame m ρ

/-- The reference runs and keeps its argument: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on `x`, both idealized programs end with the result array at `fold2d x`. -/
theorem algebraic : Cert.algebraic_KernelIdeal_ReferenceIdeal := by
  intro m ρ m' ρ' _ hagree
  refine ⟨fun c => Cert.FoldSpec.fold2d (Cert.KernelIdeal.ArrayValue.xarr m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
